-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x3 : Shape := ⟨2, ![512, 3]⟩
abbrev S8x512x3 : Shape := ⟨3, ![8, 512, 3]⟩
abbrev S8x512x1 : Shape := ⟨3, ![8, 512, 1]⟩
abbrev S8 : Shape := ⟨1, ![8]⟩
abbrev S_ : Shape := ⟨0, ![]⟩

class Facts : Prop where
  bcast_S_S512x3 : S_.BroadcastsInDim S512x3 (![] : Fin 0 → Fin S512x3.rank)
  reducesTo_S512x3_S_d0_1 : S512x3.ReducesTo [0, 1] S_
  h_S_ : 0 < S_.numel
  bcast_S_S8x512x3 : S_.BroadcastsInDim S8x512x3 (![] : Fin 0 → Fin S8x512x3.rank)
  reducesTo_S8x512x3_S_d0_1_2 : S8x512x3.ReducesTo [0, 1, 2] S_
  bcast_S_S8x512x1 : S_.BroadcastsInDim S8x512x1 (![] : Fin 0 → Fin S8x512x1.rank)
  reducesTo_S8x512x1_S_d0_1_2 : S8x512x1.ReducesTo [0, 1, 2] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S512x3 .f32) (main_arg1 : FVec F S8x512x3 .f32) (main_arg2 : FVec F S8x512x1 .f32) (main_arg3 : FVec F S8 .f32) : IVec S_ 1 :=
  let main_v0 : FVec F S512x3 .f32 := Host.absf main_arg0
  let main_cst : FVec F S_ .f32 := constant S_ .f32 0x7F800000#32
  let main_v1 : FVec F S512x3 .f32 := broadcastInDim S512x3 ![] bcast_S_S512x3 main_cst
  let main_v2 : IVec S512x3 1 := cmpf .olt main_v0 main_v1
  let main_c : IVec S_ 1 := constantI S_ 1 1#1
  let main_v3 : IVec S_ 1 := (fun x v => Host.reduce IntOp.andi x v reducesTo_S512x3_S_d0_1 h_S_) main_v2 main_c
  let main_v4 : FVec F S8x512x3 .f32 := Host.absf main_arg1
  let main_cst_0 : FVec F S_ .f32 := constant S_ .f32 0x7F800000#32
  let main_v5 : FVec F S8x512x3 .f32 := broadcastInDim S8x512x3 ![] bcast_S_S8x512x3 main_cst_0
  let main_v6 : IVec S8x512x3 1 := cmpf .olt main_v4 main_v5
  let main_c_1 : IVec S_ 1 := constantI S_ 1 1#1
  let main_v7 : IVec S_ 1 := (fun x v => Host.reduce IntOp.andi x v reducesTo_S8x512x3_S_d0_1_2 h_S_) main_v6 main_c_1
  let main_v8 : IVec S_ 1 := andi main_v3 main_v7
  let main_v9 : FVec F S8x512x1 .f32 := Host.absf main_arg2
  let main_cst_2 : FVec F S_ .f32 := constant S_ .f32 0x7F800000#32
  let main_v10 : FVec F S8x512x1 .f32 := broadcastInDim S8x512x1 ![] bcast_S_S8x512x1 main_cst_2
  let main_v11 : IVec S8x512x1 1 := cmpf .olt main_v9 main_v10
  let main_c_3 : IVec S_ 1 := constantI S_ 1 1#1
  let main_v12 : IVec S_ 1 := (fun x v => Host.reduce IntOp.andi x v reducesTo_S8x512x1_S_d0_1_2 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S512x3 : Shape := ⟨2, ![512, 3]⟩
abbrev S8x512x3 : Shape := ⟨3, ![8, 512, 3]⟩
abbrev S8x512x1 : Shape := ⟨3, ![8, 512, 1]⟩
abbrev S8 : Shape := ⟨1, ![8]⟩
abbrev S_ : Shape := ⟨0, ![]⟩
abbrev S1x8 : Shape := ⟨2, ![1, 8]⟩
abbrev S3x512 : Shape := ⟨2, ![3, 512]⟩
abbrev S8x512x512x16 : Shape := ⟨4, ![8, 512, 512, 16]⟩
abbrev S1x64x3 : Shape := ⟨3, ![1, 64, 3]⟩
abbrev S1x64x512x16 : Shape := ⟨4, ![1, 64, 512, 16]⟩
abbrev S64x512 : Shape := ⟨2, ![64, 512]⟩
abbrev S1x512 : Shape := ⟨2, ![1, 512]⟩
abbrev S1x64x1 : Shape := ⟨3, ![1, 64, 1]⟩
abbrev S64x1 : Shape := ⟨2, ![64, 1]⟩
abbrev S1x1 : Shape := ⟨2, ![1, 1]⟩
abbrev S1x64x512x1 : Shape := ⟨4, ![1, 64, 512, 1]⟩

abbrev nBuf : Space → Nat
  | .hbm => 15
  | .vmem => 6
  | .smem => 0
  | _ => 0

abbrev bufTy : (tb : Table) → Fin (tcTables nBuf tb) → BufTy
  | .hbm, ⟨0, _⟩ => ⟨S512x3, .f32⟩
  | .hbm, ⟨1, _⟩ => ⟨S8x512x3, .f32⟩
  | .hbm, ⟨2, _⟩ => ⟨S8x512x1, .f32⟩
  | .hbm, ⟨3, _⟩ => ⟨S8, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S1x8, .f32⟩
  | .hbm, ⟨13, _⟩ => ⟨S3x512, .f32⟩
  | .hbm, ⟨14, _⟩ => ⟨S8x512x512x16, .f32⟩
  | .local _ .vmem, ⟨0, _⟩ => ⟨S3x512, .f32⟩
  | .local _ .vmem, ⟨1, _⟩ => ⟨S1x64x3, .f32⟩
  | .local _ .vmem, ⟨2, _⟩ => ⟨S1x64x3, .f32⟩
  | .local _ .vmem, ⟨3, _⟩ => ⟨S1x8, .f32⟩
  | .local _ .vmem, ⟨4, _⟩ => ⟨S1x64x512x16, .f32⟩
  | .local _ .vmem, ⟨5, _⟩ => ⟨S1x64x512x16, .f32⟩
  | _, _ => ⟨S512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x64x512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8 : S_.BroadcastsInDim S8 (![] : Fin 0 → Fin S8.rank)
  shapeCasts_S8_S1x8 : S8.ShapeCasts S1x8
  transposes_S512x3_S3x512_1_0 : S512x3.Transposes [1, 0] S3x512
  inb_S3x512_S1x512_0_0 : ∀ a, (![0, 0] : Fin 2 → Nat) a + S1x512.size a ≤ S3x512.size a
  h_S1x512 : 0 < S1x512.numel
  shapeCasts_S1x512_S1x512 : S1x512.ShapeCasts S1x512
  inb_S1x64x3_S1x64x1_0_0_0 : ∀ a, (![0, 0, 0] : Fin 3 → Nat) a + S1x64x1.size a ≤ S1x64x3.size a
  h_S1x64x1 : 0 < S1x64x1.numel
  shapeCasts_S1x64x1_S64x1 : S1x64x1.ShapeCasts S64x1
  broadcasts_S64x1_S64x512 : S64x1.Broadcasts S64x512
  broadcasts_S1x512_S64x512 : S1x512.Broadcasts S64x512
  inb_S3x512_S1x512_1_0 : ∀ a, (![1, 0] : Fin 2 → Nat) a + S1x512.size a ≤ S3x512.size a
  inb_S1x64x3_S1x64x1_0_0_1 : ∀ a, (![0, 0, 1] : Fin 3 → Nat) a + S1x64x1.size a ≤ S1x64x3.size a
  inb_S3x512_S1x512_2_0 : ∀ a, (![2, 0] : Fin 2 → Nat) a + S1x512.size a ≤ S3x512.size a
  inb_S1x64x3_S1x64x1_0_0_2 : ∀ a, (![0, 0, 2] : Fin 3 → Nat) a + S1x64x1.size a ≤ S1x64x3.size a
  inb_S1x8_S1x1_0_0 : ∀ a, (![0, 0] : Fin 2 → Nat) a + S1x1.size a ≤ S1x8.size a
  h_S1x1 : 0 < S1x1.numel
  inpos_S1x1_p0_0 : ∀ a, (![0, 0] : Fin 2 → Nat) a < S1x1.size a
  inb_S1x64x512x16_S1x64x512x1_0_0_0_0 : ∀ a, (![0, 0, 0, 0] : Fin 4 → Nat) a + S1x64x512x1.size a ≤ S1x64x512x16.size a
  h_S1x64x512x1 : 0 < S1x64x512x1.numel
  shapeCasts_S1x64x512x1_S64x512 : S1x64x512x1.ShapeCasts S64x512
  shapeCasts_S64x512_S1x64x512x1 : S64x512.ShapeCasts S1x64x512x1
  inb_S1x64x512x16_S1x64x512x1_0_0_0_8 : ∀ a, (![0, 0, 0, 8] : Fin 4 → Nat) a + S1x64x512x1.size a ≤ S1x64x512x16.size a
  inb_S1x8_S1x1_0_1 : ∀ a, (![0, 1] : Fin 2 → Nat) a + S1x1.size a ≤ S1x8.size a
  inb_S1x64x512x16_S1x64x512x1_0_0_0_1 : ∀ a, (![0, 0, 0, 1] : Fin 4 → Nat) a + S1x64x512x1.size a ≤ S1x64x512x16.size a
  inb_S1x64x512x16_S1x64x512x1_0_0_0_9 : ∀ a, (![0, 0, 0, 9] : Fin 4 → Nat) a + S1x64x512x1.size a ≤ S1x64x512x16.size a
  inb_S1x8_S1x1_0_2 : ∀ a, (![0, 2] : Fin 2 → Nat) a + S1x1.size a ≤ S1x8.size a
  inb_S1x64x512x16_S1x64x512x1_0_0_0_2 : ∀ a, (![0, 0, 0, 2] : Fin 4 → Nat) a + S1x64x512x1.size a ≤ S1x64x512x16.size a
  inb_S1x64x512x16_S1x64x512x1_0_0_0_10 : ∀ a, (![0, 0, 0, 10] : Fin 4 → Nat) a + S1x64x512x1.size a ≤ S1x64x512x16.size a
  inb_S1x8_S1x1_0_3 : ∀ a, (![0, 3] : Fin 2 → Nat) a + S1x1.size a ≤ S1x8.size a
  inb_S1x64x512x16_S1x64x512x1_0_0_0_3 : ∀ a, (![0, 0, 0, 3] : Fin 4 → Nat) a + S1x64x512x1.size a ≤ S1x64x512x16.size a
  inb_S1x64x512x16_S1x64x512x1_0_0_0_11 : ∀ a, (![0, 0, 0, 11] : Fin 4 → Nat) a + S1x64x512x1.size a ≤ S1x64x512x16.size a
  inb_S1x8_S1x1_0_4 : ∀ a, (![0, 4] : Fin 2 → Nat) a + S1x1.size a ≤ S1x8.size a
  inb_S1x64x512x16_S1x64x512x1_0_0_0_4 : ∀ a, (![0, 0, 0, 4] : Fin 4 → Nat) a + S1x64x512x1.size a ≤ S1x64x512x16.size a
  inb_S1x64x512x16_S1x64x512x1_0_0_0_12 : ∀ a, (![0, 0, 0, 12] : Fin 4 → Nat) a + S1x64x512x1.size a ≤ S1x64x512x16.size a
  inb_S1x8_S1x1_0_5 : ∀ a, (![0, 5] : Fin 2 → Nat) a + S1x1.size a ≤ S1x8.size a
  inb_S1x64x512x16_S1x64x512x1_0_0_0_5 : ∀ a, (![0, 0, 0, 5] : Fin 4 → Nat) a + S1x64x512x1.size a ≤ S1x64x512x16.size a
  inb_S1x64x512x16_S1x64x512x1_0_0_0_13 : ∀ a, (![0, 0, 0, 13] : Fin 4 → Nat) a + S1x64x512x1.size a ≤ S1x64x512x16.size a
  inb_S1x8_S1x1_0_6 : ∀ a, (![0, 6] : Fin 2 → Nat) a + S1x1.size a ≤ S1x8.size a
  inb_S1x64x512x16_S1x64x512x1_0_0_0_6 : ∀ a, (![0, 0, 0, 6] : Fin 4 → Nat) a + S1x64x512x1.size a ≤ S1x64x512x16.size a
  inb_S1x64x512x16_S1x64x512x1_0_0_0_14 : ∀ a, (![0, 0, 0, 14] : Fin 4 → Nat) a + S1x64x512x1.size a ≤ S1x64x512x16.size a
  inb_S1x8_S1x1_0_7 : ∀ a, (![0, 7] : Fin 2 → Nat) a + S1x1.size a ≤ S1x8.size a
  inb_S1x64x512x16_S1x64x512x1_0_0_0_7 : ∀ a, (![0, 0, 0, 7] : Fin 4 → Nat) a + S1x64x512x1.size a ≤ S1x64x512x16.size a
  inb_S1x64x512x16_S1x64x512x1_0_0_0_15 : ∀ a, (![0, 0, 0, 15] : Fin 4 → Nat) a + S1x64x512x1.size a ≤ S1x64x512x16.size a
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S3x512.size a ≤ S3x512.size a
  hwx0_0 : ∀ i : grid0.Coords, EltTy.bits .f32 = 32 ∨ (Rect.block (s := S3x512) S3x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x3.size a ≤ S8x512x3.size a
  hwx0_1 : ∀ i : grid0.Coords, EltTy.bits .f32 = 32 ∨ (Rect.block (s := S8x512x3) S1x64x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8.size a ≤ S1x8.size a
  hwx0_2 : ∀ i : grid0.Coords, EltTy.bits .f32 = 32 ∨ (Rect.block (s := S1x8) S1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x512x16.size a ≤ S8x512x512x16.size a
  hwx0_3 : ∀ i : grid0.Coords, EltTy.bits .f32 = 32 ∨ (Rect.block (s := S8x512x512x16) S1x64x512x16.size (cc0_transform_3 i) (hinb0_3 i)).WholeWords (EltTy.packing .f32)

variable [Facts₀]

abbrev win0_0 : Pipeline.Window sig grid0 :=
  Pipeline.Window.ofSpec (Memref.whole main_v2) S3x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x64x512x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x3 : Shape := ⟨2, ![512, 3]⟩
abbrev S8x512x3 : Shape := ⟨3, ![8, 512, 3]⟩
abbrev S8x512x1 : Shape := ⟨3, ![8, 512, 1]⟩
abbrev S8 : Shape := ⟨1, ![8]⟩
abbrev S1x512x3 : Shape := ⟨3, ![1, 512, 3]⟩
abbrev S_ : Shape := ⟨0, ![]⟩
abbrev S1x1x512x3 : Shape := ⟨4, ![1, 1, 512, 3]⟩
abbrev S8x512x1x3 : Shape := ⟨4, ![8, 512, 1, 3]⟩
abbrev S8x512x512x3 : Shape := ⟨4, ![8, 512, 512, 3]⟩
abbrev S8x512x512 : Shape := ⟨3, ![8, 512, 512]⟩
abbrev S8x512x512x1 : Shape := ⟨4, ![8, 512, 512, 1]⟩
abbrev S1x1x1x8 : Shape := ⟨4, ![1, 1, 1, 8]⟩
abbrev S8x512x512x8 : Shape := ⟨4, ![8, 512, 512, 8]⟩
abbrev S8x512x512x16 : Shape := ⟨4, ![8, 512, 512, 16]⟩

abbrev nBuf : Space → Nat
  | .hbm => 30
  | .vmem => 0
  | .smem => 0
  | _ => 0

abbrev bufTy : (tb : Table) → Fin (tcTables nBuf tb) → BufTy
  | .hbm, ⟨0, _⟩ => ⟨S512x3, .f32⟩
  | .hbm, ⟨1, _⟩ => ⟨S8x512x3, .f32⟩
  | .hbm, ⟨2, _⟩ => ⟨S8x512x1, .f32⟩
  | .hbm, ⟨3, _⟩ => ⟨S8, .f32⟩
  | .hbm, ⟨4, _⟩ => ⟨S1x512x3, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S1x1x512x3, .f32⟩
  | .hbm, ⟨14, _⟩ => ⟨S8x512x1x3, .f32⟩
  | .hbm, ⟨15, _⟩ => ⟨S8x512x512x3, .f32⟩
  | .hbm, ⟨16, _⟩ => ⟨S8x512x512x3, .f32⟩
  | .hbm, ⟨17, _⟩ => ⟨S8x512x512x3, .f32⟩
  | .hbm, ⟨18, _⟩ => ⟨S8x512x512x3, .f32⟩
  | .hbm, ⟨19, _⟩ => ⟨S_, .f32⟩
  | .hbm, ⟨20, _⟩ => ⟨S8x512x512, .f32⟩
  | .hbm, ⟨21, _⟩ => ⟨S8x512x512, .f32⟩
  | .hbm, ⟨22, _⟩ => ⟨S8x512x512x1, .f32⟩
  | .hbm, ⟨23, _⟩ => ⟨S1x1x1x8, .f32⟩
  | .hbm, ⟨24, _⟩ => ⟨S8x512x512x8, .f32⟩
  | .hbm, ⟨25, _⟩ => ⟨S8x512x512x8, .f32⟩
  | .hbm, ⟨26, _⟩ => ⟨S8x512x512x8, .f32⟩
  | .hbm, ⟨27, _⟩ => ⟨S8x512x512x8, .f32⟩
  | .hbm, ⟨28, _⟩ => ⟨S8x512x512x8, .f32⟩
  | .hbm, ⟨29, _⟩ => ⟨S8x512x512x16, .f32⟩
  | _, _ => ⟨S512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]

class Facts₀ : Prop where
  bcast_S512x3_S1x512x3_1_2 : S512x3.BroadcastsInDim S1x512x3 (![1, 2] : Fin 2 → Fin S1x512x3.rank)
  bcast_S_S8 : S_.BroadcastsInDim S8 (![] : Fin 0 → Fin S8.rank)
  bcast_S1x512x3_S1x1x512x3_0_2_3 : S1x512x3.BroadcastsInDim S1x1x512x3 (![0, 2, 3] : Fin 3 → Fin S1x1x512x3.rank)
  bcast_S8x512x3_S8x512x1x3_0_1_3 : S8x512x3.BroadcastsInDim S8x512x1x3 (![0, 1, 3] : Fin 3 → Fin S8x512x1x3.rank)
  bcast_S1x1x512x3_S8x512x512x3_0_1_2_3 : S1x1x512x3.BroadcastsInDim S8x512x512x3 (![0, 1, 2, 3] : Fin 4 → Fin S8x512x512x3.rank)
  bcast_S8x512x1x3_S8x512x512x3_0_1_2_3 : S8x512x1x3.BroadcastsInDim S8x512x512x3 (![0, 1, 2, 3] : Fin 4 → Fin S8x512x512x3.rank)
  reducesTo_S8x512x512x3_S8x512x512_d3 : S8x512x512x3.ReducesTo [3] S8x512x512
  h_S_ : 0 < S_.numel
  bcast_S8x512x512_S8x512x512x1_0_1_2 : S8x512x512.BroadcastsInDim S8x512x512x1 (![0, 1, 2] : Fin 3 → Fin S8x512x512x1.rank)
  bcast_S8_S1x1x1x8_3 : S8.BroadcastsInDim S1x1x1x8 (![3] : Fin 1 → Fin S1x1x1x8.rank)
  bcast_S8x512x512x1_S8x512x512x8_0_1_2_3 : S8x512x512x1.BroadcastsInDim S8x512x512x8 (![0, 1, 2, 3] : Fin 4 → Fin S8x512x512x8.rank)
  bcast_S1x1x1x8_S8x512x512x8_0_1_2_3 : S1x1x1x8.BroadcastsInDim S8x512x512x8 (![0, 1, 2, 3] : Fin 4 → Fin S8x512x512x8.rank)
  concatenates_S8x512x512x8_S8x512x512x8_S8x512x512x16_d3 : Shape.Concatenates [S8x512x512x8, S8x512x512x8] S8x512x512x16 3

variable [Facts₀]

class Facts : Prop extends Facts₀ where

variable [Facts]
-- ==== Proof.Spec.lean ====
/-
  The multi-frequency Fourier features as ONE function of the argument arrays.

  For a batch `b`, a centre `n`, a point `k` and a frequency `f`, the feature is
  `cos (‖mu[b,n,:] - z[k,:]‖ · c f)` in column `f` and `sin` of the same phase in column `8 + f`, where
  `c f = min 10 (max 0.1 (freq f))` is the clipped frequency and the squared distance is the sum, from zero,
  of the three squared coordinate differences in order. Everything is read on the extended reals.

  The one algebraic fact the two programs need is that a squared difference does not see the order of its
  operands, `(a - b)·(a - b) = (b - a)·(b - a)`: it holds at every extended real, the infinities included,
  so no finiteness of the inputs is used.
-/
import Idealize.ShloMosaic.PureOps.Ideal
import Idealize.ShloMosaic.Lib.ValueIdx

noncomputable section

namespace Cert.Fourier

open Idealize.ShloMosaic Idealize.ShloMosaic.ValueIdx

/-- The squared difference of two extended reals. -/
def sqd (a b : EReal) : EReal := (a - b) * (a - b)

/-- A squared difference is symmetric, at the infinities too: where `a - b` is `⊤` the swapped difference is `⊥`,
    where it is the junk `⊥` so is the swapped one, and either way the square is `⊤`; on the reals it is `ring`. -/
theorem sqd_comm (a b : EReal) : sqd a b = sqd b a := by
  unfold sqd
  induction a using EReal.rec with
  | bot =>
    induction b using EReal.rec with
    | bot => rfl
    | coe b => simp
    | top => simp
  | coe a =>
    induction b using EReal.rec with
    | bot => simp
    | coe b =>
      rw [← EReal.coe_sub, ← EReal.coe_sub, ← EReal.coe_mul, ← EReal.coe_mul]
      congr 1; ring
    | top => simp
  | top =>
    induction b using EReal.rec with
    | bot => simp
    | coe b => simp
    | top => rfl

/-- The squared distance as both programs add it: from the zero word, the three squared differences in order. -/
def dsum (a0 b0 a1 b1 a2 b2 : EReal) : EReal :=
  ((Ideal.ofBits .f32 0x00000000#32 + sqd a0 b0) + sqd a1 b1) + sqd a2 b2

/-- Column `j` of the sixteen: the cosine of the phase `√d · c j` for `j < 8`, the sine of `√d · c (j - 8)` after. -/
def wave (j : Fin 16) (d : EReal) (c : Fin 8 → EReal) : EReal :=
  if h : j.val < 8 then Ideal.cos (Ideal.sqrt d * c ⟨j.val, h⟩)
  else Ideal.sin (Ideal.sqrt d * c ⟨j.val - 8, by have := j.isLt; omega⟩)

/-- The clipped frequencies: `min 10 (max 0.1 ·)`, the two bounds kept as their f32 words. -/
def clip (fr : (⟨1, ![8]⟩ : Shape).Idx → EReal) : (⟨1, ![8]⟩ : Shape).Idx → EReal :=
  fun i => min (Ideal.ofBits .f32 0x41200000#32) (max (Ideal.ofBits .f32 0x3DCCCCCD#32) (fr i))

/-- THE RESULT: entry `(b, n, k, j)` is column `j`'s wave of the squared distance between centre `mu[b,n,:]` and
    point `z[k,:]`, at the clipped frequencies. -/
def feat (z : (⟨2, ![512, 3]⟩ : Shape).Idx → EReal) (mu : (⟨3, ![8, 512, 3]⟩ : Shape).Idx → EReal)
    (fr : (⟨1, ![8]⟩ : Shape).Idx → EReal) : (⟨4, ![8, 512, 512, 16]⟩ : Shape).Idx → EReal :=
  fun i => wave (i 3)
    (dsum (mu (ix3 (i 0) (i 1) 0)) (z (ix2 (i 2) 0)) (mu (ix3 (i 0) (i 1) 1)) (z (ix2 (i 2) 1))
      (mu (ix3 (i 0) (i 1) 2)) (z (ix2 (i 2) 2)))
    (fun f => clip fr (ix1 f))

end Cert.Fourier

end
-- ==== Proof.Block.lean ====
/-
  What ONE grid point's body leaves in its output block, as a function of the three input blocks.

  The body reads the three rows of the transposed points `zt : [3,512]` and the three coordinate columns of the
  centres' block `mub : [1,64,3]`, forms `d[r,k] = √(((0 + (mub[r,0]-zt[0,k])²) + (mub[r,1]-zt[1,k])²) + (mub[r,2]-zt[2,k])²)`
  once, and for each of the eight frequencies `cf[0,f]` stores `cos (d · cf[0,f])` into column `f` and
  `sin (d · cf[0,f])` into column `8 + f` of the `[1,64,512,16]` block. The sixteen column stores tile the block, so
  the block after the body is ONE function of its index: column `j`'s wave of the squared distance.
-/
import proofs.«116936_j46566035423348_1_alg».proof.Proof.Gen.KernelIdeal.Frame
import proofs.«116936_j46566035423348_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Cert.Fourier

/-- The block a point's body leaves: entry `(0, r, k, j)` is column `j`'s wave of the squared distance between row
    `r` of the centres' block and column `k` of the transposed points, at the frequencies' block. -/
def blockFeat (x0 : Vec Ideal S3x512 .f32) (x1 : Vec Ideal S1x64x3 .f32) (x2 : Vec Ideal S1x8 .f32) :
    S1x64x512x16.Idx → EReal :=
  fun y => wave (y 3)
    (dsum (x1 (ix3 (n0 := 1) (n1 := 64) (n2 := 3) 0 (y 1) 0)) (x0 (ix2 (n0 := 3) (n1 := 512) 0 (y 2)))
      (x1 (ix3 (n0 := 1) (n1 := 64) (n2 := 3) 0 (y 1) 1)) (x0 (ix2 (n0 := 3) (n1 := 512) 1 (y 2)))
      (x1 (ix3 (n0 := 1) (n1 := 64) (n2 := 3) 0 (y 1) 2)) (x0 (ix2 (n0 := 3) (n1 := 512) 2 (y 2))))
    (fun f => x2 (ix2 (n0 := 1) (n1 := 8) 0 f))

/-! ## The layout steps of the distance, read at an entry -/

/-- A `[1,64,1]` coordinate column, cast to `[64,1]` and broadcast along the 512 lanes, reads its row. -/
theorem col_apply (v : Vec Ideal S1x64x1 .f32) (r : Fin 64) (k : Fin 512) :
    broadcastTo S64x512 (shapeCast S64x1 v shapeCasts_S1x64x1_S64x1) broadcasts_S64x1_S64x512 (ix2 r k)
      = v (ix3 (n0 := 1) (n1 := 64) (n2 := 1) 0 r 0) := by
  refine (broadcastTo_apply _ _ (ix2 r k) (ix2 (n0 := 64) (n1 := 1) r 0) (fun a => ?_)).trans ?_
  · match a with
    | ⟨0, _⟩ => show r.val = if (64 : Nat) = 1 then 0 else r.val; rw [if_neg (by decide)]
    | ⟨1, _⟩ => show 0 = if (1 : Nat) = 1 then 0 else k.val; rw [if_pos rfl]
  · refine shapeCast_apply _ _ _ _ ?_
    rw [Shape.rowMajor_val_three, Shape.rowMajor_val_two]
    show (0 * 64 + r.val) * 1 + 0 = r.val * 1 + 0
    omega

/-- A `[1,512]` row of the points, broadcast down the 64 rows, reads its lane. -/
theorem row_apply (v : Vec Ideal S1x512 .f32) (r : Fin 64) (k : Fin 512) :
    broadcastTo S64x512 (shapeCast S1x512 v shapeCasts_S1x512_S1x512) broadcasts_S1x512_S64x512 (ix2 r k)
      = v (ix2 (n0 := 1) (n1 := 512) 0 k) := by
  rw [shapeCast_self]
  refine broadcastTo_apply _ _ (ix2 r k) _ (fun a => ?_)
  match a with
  | ⟨0, _⟩ => show 0 = if (1 : Nat) = 1 then 0 else r.val; rw [if_pos rfl]
  | ⟨1, _⟩ => show k.val = if (512 : Nat) = 1 then 0 else k.val; rw [if_neg (by decide)]

/-- Row `p` of the transposed points, loaded as a `[1,512]` vector, at lane `k`. -/
theorem ld_row (x0 : Vec Ideal S3x512 .f32) (p : Fin 3)
    (inb : ∀ a, (![p.val, 0] : Fin 2 → Nat) a + S1x512.size a ≤ S3x512.size a) (k : Fin 512) :
    View.ld x0 (Rect.unit (s := S3x512) ![p.val, 0] S1x512.size inb) (ix2 (n0 := 1) (n1 := 512) 0 k)
      = x0 (ix2 (n0 := 3) (n1 := 512) p k) := by
  show x0 _ = x0 _
  congr 1; funext a; apply Fin.ext
  match a with
  | ⟨0, _⟩ => show p.val + 1 * 0 = p.val; omega
  | ⟨1, _⟩ => show 0 + 1 * k.val = k.val; omega

/-- Coordinate column `p` of the centres' block, loaded as a `[1,64,1]` vector, at row `r`. -/
theorem ld_col (x1 : Vec Ideal S1x64x3 .f32) (p : Fin 3)
    (inb : ∀ a, (![0, 0, p.val] : Fin 3 → Nat) a + S1x64x1.size a ≤ S1x64x3.size a) (r : Fin 64) :
    View.ld x1 (Rect.unit (s := S1x64x3) ![0, 0, p.val] S1x64x1.size inb) (ix3 (n0 := 1) (n1 := 64) (n2 := 1) 0 r 0)
      = x1 (ix3 (n0 := 1) (n1 := 64) (n2 := 3) 0 r p) := by
  show x1 _ = x1 _
  congr 1; funext a; apply Fin.ext
  match a with
  | ⟨0, _⟩ => show 0 + 1 * 0 = 0; omega
  | ⟨1, _⟩ => show 0 + 1 * r.val = r.val; omega
  | ⟨2, _⟩ => show p.val + 1 * 0 = p.val; omega

/-- Frequency `f`, loaded as a `[1,1]` vector. -/
theorem ld_freq (x2 : Vec Ideal S1x8 .f32) (f : Fin 8)
    (inb : ∀ a, (![0, f.val] : Fin 2 → Nat) a + S1x1.size a ≤ S1x8.size a) :
    View.ld x2 (Rect.unit (s := S1x8) ![0, f.val] S1x1.size inb) (ix2 (n0 := 1) (n1 := 1) 0 0)
      = x2 (ix2 (n0 := 1) (n1 := 8) 0 f) := by
  show x2 _ = x2 _
  congr 1; funext a; apply Fin.ext
  match a with
  | ⟨0, _⟩ => show 0 + 1 * 0 = 0; omega
  | ⟨1, _⟩ => show f.val + 1 * 0 = f.val; omega

/-! ## The distance block -/

/-- The body's distance: the root of the three squared differences added from zero, over the six loads. -/
abbrev distBlk (x0 : Vec Ideal S3x512 .f32) (x1 : Vec Ideal S1x64x3 .f32) : FVec Ideal S64x512 .f32 :=
  k0_pay2 (View.ld x0 r0_0) (View.ld x1 r0_1) (View.ld x0 r0_2) (View.ld x1 r0_3) (View.ld x0 r0_4) (View.ld x1 r0_5)

/-- The pointwise part of the distance at an entry, over any six `[64,512]` operands. -/
theorem dist_pointwise (A0 B0 A1 B1 A2 B2 : FVec Ideal S64x512 .f32) (i : S64x512.Idx) :
    sqrt (addf (addf (addf (broadcast S64x512 (Scalar.ofBits (F := Ideal) .f32 0x00000000#32)) (mulf (subf A0 B0) (subf A0 B0)))
      (mulf (subf A1 B1) (subf A1 B1))) (mulf (subf A2 B2) (subf A2 B2))) i
      = Ideal.sqrt (dsum (A0 i) (B0 i) (A1 i) (B1 i) (A2 i) (B2 i)) := rfl

theorem distBlk_apply (x0 : Vec Ideal S3x512 .f32) (x1 : Vec Ideal S1x64x3 .f32) (r : Fin 64) (k : Fin 512) :
    distBlk x0 x1 (ix2 r k)
      = Ideal.sqrt (dsum (x1 (ix3 (n0 := 1) (n1 := 64) (n2 := 3) 0 r 0)) (x0 (ix2 (n0 := 3) (n1 := 512) 0 k))
          (x1 (ix3 (n0 := 1) (n1 := 64) (n2 := 3) 0 r 1)) (x0 (ix2 (n0 := 3) (n1 := 512) 1 k))
          (x1 (ix3 (n0 := 1) (n1 := 64) (n2 := 3) 0 r 2)) (x0 (ix2 (n0 := 3) (n1 := 512) 2 k))) := by
  unfold distBlk k0_pay2
  refine (dist_pointwise _ _ _ _ _ _ (ix2 r k)).trans ?_
  rw [col_apply, col_apply, col_apply, row_apply, row_apply, row_apply]
  have c0 : View.ld x1 r0_1 (ix3 (n0 := 1) (n1 := 64) (n2 := 1) 0 r 0) = x1 (ix3 (n0 := 1) (n1 := 64) (n2 := 3) 0 r 0) := ld_col x1 0 _ r
  have c1 : View.ld x1 r0_3 (ix3 (n0 := 1) (n1 := 64) (n2 := 1) 0 r 0) = x1 (ix3 (n0 := 1) (n1 := 64) (n2 := 3) 0 r 1) := ld_col x1 1 _ r
  have c2 : View.ld x1 r0_5 (ix3 (n0 := 1) (n1 := 64) (n2 := 1) 0 r 0) = x1 (ix3 (n0 := 1) (n1 := 64) (n2 := 3) 0 r 2) := ld_col x1 2 _ r
  have z0 : View.ld x0 r0_0 (ix2 (n0 := 1) (n1 := 512) 0 k) = x0 (ix2 (n0 := 3) (n1 := 512) 0 k) := ld_row x0 0 _ k
  have z1 : View.ld x0 r0_2 (ix2 (n0 := 1) (n1 := 512) 0 k) = x0 (ix2 (n0 := 3) (n1 := 512) 1 k) := ld_row x0 1 _ k
  have z2 : View.ld x0 r0_4 (ix2 (n0 := 1) (n1 := 512) 0 k) = x0 (ix2 (n0 := 3) (n1 := 512) 2 k) := ld_row x0 2 _ k
  rw [c0, c1, c2, z0, z1, z2]

/-! ## The sixteen column stores -/

/-- Where a `[1,64,512,1]` column store at lane offset `j` puts its entry `x`: row and lane kept, column `j`. -/
theorem emb_col (j : Fin 16) (inb : ∀ a, (![0, 0, 0, j.val] : Fin 4 → Nat) a + S1x64x512x1.size a ≤ S1x64x512x16.size a)
    (x : S1x64x512x1.Idx) :
    (Rect.unit (s := S1x64x512x16) ![0, 0, 0, j.val] S1x64x512x1.size inb).emb x
      = ix4 (n0 := 1) (n1 := 64) (n2 := 512) (n3 := 16) 0 (x 1) (x 2) j := by
  have hx0 : (x 0).val < 1 := (x 0).isLt
  have hx3 : (x 3).val < 1 := (x 3).isLt
  funext a; apply Fin.ext
  match a with
  | ⟨0, _⟩ => show 0 + 1 * (x 0).val = 0; omega
  | ⟨1, _⟩ => show 0 + 1 * (x 1).val = (x 1).val; omega
  | ⟨2, _⟩ => show 0 + 1 * (x 2).val = (x 2).val; omega
  | ⟨3, _⟩ => show j.val + 1 * (x 3).val = j.val; omega

/-- A `[64,512]` value laid out as a `[1,64,512,1]` column reads its row and lane. -/
theorem column_apply (v : FVec Ideal S64x512 .f32) (x : S1x64x512x1.Idx) :
    shapeCast S1x64x512x1 v shapeCasts_S64x512_S1x64x512x1 x = v (ix2 (n0 := 64) (n1 := 512) (x 1) (x 2)) := by
  have hx0 : (x 0).val < 1 := (x 0).isLt
  have hx3 : (x 3).val < 1 := (x 3).isLt
  refine shapeCast_apply _ _ x _ ?_
  rw [Shape.rowMajor_val_two, Shape.rowMajor_val_four]
  show (x 1).val * 512 + (x 2).val = (((x 0).val * 64 + (x 1).val) * 512 + (x 2).val) * 1 + (x 3).val
  omega

/-- The one entry of a `[1,1]` vector, extracted. -/
theorem extract00 (fv : Vec Ideal S1x1 .f32) :
    extractAt ![0, 0] fv inpos_S1x1_p0_0 = fv (ix2 (n0 := 1) (n1 := 1) 0 0) := by
  unfold extractAt
  congr 1; funext a; apply Fin.ext
  match a with
  | ⟨0, _⟩ => rfl
  | ⟨1, _⟩ => rfl

/-- The cosine column of frequency `f` is column `f` of the block's function. -/
theorem cos_col (x0 : Vec Ideal S3x512 .f32) (x1 : Vec Ideal S1x64x3 .f32) (x2 : Vec Ideal S1x8 .f32) (f : Fin 8)
    (fv : Vec Ideal S1x1 .f32) (hfv : fv (ix2 (n0 := 1) (n1 := 1) 0 0) = x2 (ix2 (n0 := 1) (n1 := 8) 0 f))
    (x : S1x64x512x1.Idx) :
    shapeCast S1x64x512x1 (cos (mulf (distBlk x0 x1) (broadcast S64x512 (extractAt ![0, 0] fv inpos_S1x1_p0_0))))
        shapeCasts_S64x512_S1x64x512x1 x
      = blockFeat x0 x1 x2 (ix4 (n0 := 1) (n1 := 64) (n2 := 512) (n3 := 16) 0 (x 1) (x 2) ⟨f.val, by omega⟩) := by
  rw [column_apply]
  show Ideal.cos (distBlk x0 x1 (ix2 (n0 := 64) (n1 := 512) (x 1) (x 2)) * extractAt ![0, 0] fv inpos_S1x1_p0_0) = _
  rw [extract00, distBlk_apply x0 x1 (x 1) (x 2), hfv]
  unfold blockFeat wave
  rw [dif_pos (show ((⟨f.val, by omega⟩ : Fin 16) : Fin 16).val < 8 from f.isLt)]

/-- The sine column of frequency `f` is column `8 + f` of the block's function. -/
theorem sin_col (x0 : Vec Ideal S3x512 .f32) (x1 : Vec Ideal S1x64x3 .f32) (x2 : Vec Ideal S1x8 .f32) (f : Fin 8)
    (fv : Vec Ideal S1x1 .f32) (hfv : fv (ix2 (n0 := 1) (n1 := 1) 0 0) = x2 (ix2 (n0 := 1) (n1 := 8) 0 f))
    (x : S1x64x512x1.Idx) :
    shapeCast S1x64x512x1 (sin (mulf (distBlk x0 x1) (broadcast S64x512 (extractAt ![0, 0] fv inpos_S1x1_p0_0))))
        shapeCasts_S64x512_S1x64x512x1 x
      = blockFeat x0 x1 x2 (ix4 (n0 := 1) (n1 := 64) (n2 := 512) (n3 := 16) 0 (x 1) (x 2) ⟨f.val + 8, by omega⟩) := by
  rw [column_apply]
  show Ideal.sin (distBlk x0 x1 (ix2 (n0 := 64) (n1 := 512) (x 1) (x 2)) * extractAt ![0, 0] fv inpos_S1x1_p0_0) = _
  rw [extract00, distBlk_apply x0 x1 (x 1) (x 2), hfv]
  unfold blockFeat wave
  rw [dif_neg (show ¬ ((⟨f.val + 8, by omega⟩ : Fin 16) : Fin 16).val < 8 from by show ¬ f.val + 8 < 8; omega)]
  show _ = Ideal.sin (_ * x2 (ix2 (n0 := 1) (n1 := 8) 0 ⟨f.val + 8 - 8, _⟩))
  congr 3

/-- THE BLOCK after the body is the block's function: each of the sixteen column stores holds its column of it, and
    the columns tile the block. -/
theorem out_eq (x0 : Vec Ideal S3x512 .f32) (x1 : Vec Ideal S1x64x3 .f32) (x2 : Vec Ideal S1x8 .f32) :
    out0_3 x0 x1 x2 = blockFeat x0 x1 x2 := by
  funext y
  unfold out0_3
  refine View.canon_apply_of_pieces (Val := Elt Ideal) (e := .f32) (blockFeat x0 x1 x2) _ ?_ y (cover0_3 _ _ _ _ _ _ _ _ _ _ _ _ _ _ _ _ y)
  intro p hp
  simp only [List.mem_cons, List.not_mem_nil, or_false] at hp
  rcases hp with rfl | rfl | rfl | rfl | rfl | rfl | rfl | rfl | rfl | rfl | rfl | rfl | rfl | rfl | rfl | rfl
  · exact fun x => (sin_col x0 x1 x2 7 _ (ld_freq x2 7 inb_S1x8_S1x1_0_7) x).trans
      (congrArg (blockFeat x0 x1 x2) (emb_col 15 inb_S1x64x512x16_S1x64x512x1_0_0_0_15 x).symm)
  · exact fun x => (cos_col x0 x1 x2 7 _ (ld_freq x2 7 inb_S1x8_S1x1_0_7) x).trans
      (congrArg (blockFeat x0 x1 x2) (emb_col 7 inb_S1x64x512x16_S1x64x512x1_0_0_0_7 x).symm)
  · exact fun x => (sin_col x0 x1 x2 6 _ (ld_freq x2 6 inb_S1x8_S1x1_0_6) x).trans
      (congrArg (blockFeat x0 x1 x2) (emb_col 14 inb_S1x64x512x16_S1x64x512x1_0_0_0_14 x).symm)
  · exact fun x => (cos_col x0 x1 x2 6 _ (ld_freq x2 6 inb_S1x8_S1x1_0_6) x).trans
      (congrArg (blockFeat x0 x1 x2) (emb_col 6 inb_S1x64x512x16_S1x64x512x1_0_0_0_6 x).symm)
  · exact fun x => (sin_col x0 x1 x2 5 _ (ld_freq x2 5 inb_S1x8_S1x1_0_5) x).trans
      (congrArg (blockFeat x0 x1 x2) (emb_col 13 inb_S1x64x512x16_S1x64x512x1_0_0_0_13 x).symm)
  · exact fun x => (cos_col x0 x1 x2 5 _ (ld_freq x2 5 inb_S1x8_S1x1_0_5) x).trans
      (congrArg (blockFeat x0 x1 x2) (emb_col 5 inb_S1x64x512x16_S1x64x512x1_0_0_0_5 x).symm)
  · exact fun x => (sin_col x0 x1 x2 4 _ (ld_freq x2 4 inb_S1x8_S1x1_0_4) x).trans
      (congrArg (blockFeat x0 x1 x2) (emb_col 12 inb_S1x64x512x16_S1x64x512x1_0_0_0_12 x).symm)
  · exact fun x => (cos_col x0 x1 x2 4 _ (ld_freq x2 4 inb_S1x8_S1x1_0_4) x).trans
      (congrArg (blockFeat x0 x1 x2) (emb_col 4 inb_S1x64x512x16_S1x64x512x1_0_0_0_4 x).symm)
  · exact fun x => (sin_col x0 x1 x2 3 _ (ld_freq x2 3 inb_S1x8_S1x1_0_3) x).trans
      (congrArg (blockFeat x0 x1 x2) (emb_col 11 inb_S1x64x512x16_S1x64x512x1_0_0_0_11 x).symm)
  · exact fun x => (cos_col x0 x1 x2 3 _ (ld_freq x2 3 inb_S1x8_S1x1_0_3) x).trans
      (congrArg (blockFeat x0 x1 x2) (emb_col 3 inb_S1x64x512x16_S1x64x512x1_0_0_0_3 x).symm)
  · exact fun x => (sin_col x0 x1 x2 2 _ (ld_freq x2 2 inb_S1x8_S1x1_0_2) x).trans
      (congrArg (blockFeat x0 x1 x2) (emb_col 10 inb_S1x64x512x16_S1x64x512x1_0_0_0_10 x).symm)
  · exact fun x => (cos_col x0 x1 x2 2 _ (ld_freq x2 2 inb_S1x8_S1x1_0_2) x).trans
      (congrArg (blockFeat x0 x1 x2) (emb_col 2 inb_S1x64x512x16_S1x64x512x1_0_0_0_2 x).symm)
  · exact fun x => (sin_col x0 x1 x2 1 _ (ld_freq x2 1 inb_S1x8_S1x1_0_1) x).trans
      (congrArg (blockFeat x0 x1 x2) (emb_col 9 inb_S1x64x512x16_S1x64x512x1_0_0_0_9 x).symm)
  · exact fun x => (cos_col x0 x1 x2 1 _ (ld_freq x2 1 inb_S1x8_S1x1_0_1) x).trans
      (congrArg (blockFeat x0 x1 x2) (emb_col 1 inb_S1x64x512x16_S1x64x512x1_0_0_0_1 x).symm)
  · exact fun x => (sin_col x0 x1 x2 0 _ (ld_freq x2 0 inb_S1x8_S1x1_0_0) x).trans
      (congrArg (blockFeat x0 x1 x2) (emb_col 8 inb_S1x64x512x16_S1x64x512x1_0_0_0_8 x).symm)
  · exact fun x => (cos_col x0 x1 x2 0 _ (ld_freq x2 0 inb_S1x8_S1x1_0_0) x).trans
      (congrArg (blockFeat x0 x1 x2) (emb_col 0 inb_S1x64x512x16_S1x64x512x1_0_0_0_0 x).symm)

end Cert.KernelIdeal.Hand

end
-- ==== Proof.KernelValue.lean ====
/-
  The kernel's result array is the feature function of the arguments.

  Before the region the host transposes the points to `[3,512]` and clips the frequencies (reshaped to `[1,8]`).
  Grid point `(b, i)` stages the whole transposed points, rows `64 i … 64 i + 63` of batch `b` of the centres, and
  the whole clipped frequencies, and writes back block `(b, i, 0, 0)` of the `[8,512,512,16]` result. What the
  body leaves there (the block's function of its inputs) is, entry by entry, the feature function of the argument
  arrays at the array index the block entry lands on; the 64 blocks tile the array.
-/
import proofs.«116936_j46566035423348_1_alg».proof.Proof.Gen.KernelIdeal.Value
import proofs.«116936_j46566035423348_1_alg».proof.Proof.Block
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.ValueIdx Cert.Fourier
open Idealize.ShloMosaic.Pipeline (Dat)

variable (m : (ℓ : Loc nD τ sig) → Buf (Elt Ideal) ℓ) (ρ : Dev nD → PrngReg)

/-! ## The arrays the region finds -/

/-- The points as the region finds them: transposed to `[3,512]`. -/
theorem V_zt (c : Dev nD) :
    (V m c main_v2 : S3x512.Idx → EReal)
      = transpose S3x512 [1, 0] (m ((c : Thread nD τ).loc main_arg0)) transposes_S512x3_S3x512_1_0 := by
  dsimp only [Gen.V]
  simp only [Gen.hostOps0, Gen.hostOps0_1, Gen.hostOps0_2, List.flatten_cons, List.flatten_nil, List.append_nil,
    List.cons_append, List.nil_append]
  after_results

/-- The frequencies as the region finds them: clipped between the two splat bounds, then reshaped to `[1,8]`. -/
theorem V_cf (c : Dev nD) :
    (V m c main_v1 : S1x8.Idx → EReal)
      = shapeCast S1x8 (minimumf (broadcastInDim S8 ![] bcast_S_S8 (constant (F := Ideal) S_ .f32 0x41200000#32))
          (maximumf (broadcastInDim S8 ![] bcast_S_S8 (constant (F := Ideal) S_ .f32 0x3DCCCCCD#32))
            (m ((c : Thread nD τ).loc main_arg3)))) shapeCasts_S8_S1x8 := by
  dsimp only [Gen.V]
  simp only [Gen.hostOps0, Gen.hostOps0_1, Gen.hostOps0_2, List.flatten_cons, List.flatten_nil, List.append_nil,
    List.cons_append, List.nil_append]
  after_results
  rfl

/-- Entry `(0, f)` of the clipped, reshaped frequencies is the clip of frequency `f`. -/
theorem V_cf_apply (c : Dev nD) (f : Fin 8) :
    (V m c main_v1 : S1x8.Idx → EReal) (ix2 (n0 := 1) (n1 := 8) 0 f)
      = clip (m ((c : Thread nD τ).loc main_arg3)) (ix1 (n := 8) f) := by
  rw [V_cf]
  refine (shapeCast_apply _ _ (ix2 (n0 := 1) (n1 := 8) 0 f) (ix1 (n := 8) f) ?_).trans ?_
  · rw [Shape.rowMajor_val_one, Shape.rowMajor_val_two]
    show f.val = 0 * 8 + f.val
    omega
  · show min (broadcastInDim S8 ![] bcast_S_S8 (constant (F := Ideal) S_ .f32 0x41200000#32) (ix1 f))
        (max (broadcastInDim S8 ![] bcast_S_S8 (constant (F := Ideal) S_ .f32 0x3DCCCCCD#32) (ix1 f)) _) = _
    rw [broadcastInDim_apply _ bcast_S_S8 _ (ix1 (n := 8) f) ix0 (fun a => a.elim0),
      broadcastInDim_apply _ bcast_S_S8 _ (ix1 (n := 8) f) ix0 (fun a => a.elim0)]
    rfl

/-! ## The printed index maps over the grid -/

/-- Decided over the 64 points: the points' and the frequencies' windows sit at block (0, 0); the centres' block
    moves with the output's on batch and row tile; the output's block is `(b, i, 0, 0)` with `b, i < 8`. -/
theorem idx_facts : ∀ t : Fin cfg0.N,
    win0_0.index t (0 : Fin 2) = 0 ∧ win0_0.index t (1 : Fin 2) = 0
    ∧ win0_2.index t (0 : Fin 2) = 0 ∧ win0_2.index t (1 : Fin 2) = 0
    ∧ win0_1.index t (0 : Fin 3) = win0_3.index t (0 : Fin 4)
    ∧ win0_1.index t (1 : Fin 3) = win0_3.index t (1 : Fin 4)
    ∧ win0_1.index t (2 : Fin 3) = 0
    ∧ win0_3.index t (2 : Fin 4) = 0 ∧ win0_3.index t (3 : Fin 4) = 0
    ∧ win0_3.index t (0 : Fin 4) < 8 ∧ win0_3.index t (1 : Fin 4) < 8 :=
  (by decide +kernel : ∀ t : Fin grid0.N, _)

/-- Every (batch, row tile) pair is some point's output block. -/
theorem idx_onto : ∀ (q0 : Fin 8) (q1 : Fin 8), ∃ t : Fin cfg0.N, win0_3.index t = ![q0.val, q1.val, 0, 0] :=
  (by decide +kernel : ∀ (q0 : Fin 8) (q1 : Fin 8), ∃ t : Fin grid0.N, win0_3.index t = ![q0.val, q1.val, 0, 0])

/-! ## The input blocks, read at an entry -/

/-- The points' block is the whole transposed array: entry `(p, k)` is coordinate `p` of point `k`. -/
theorem zt_read (c : Dev nD) (t : Fin cfg0.N) (p : Fin 3) (k : Fin 512) :
    (iblk m c 0 t : S3x512.Idx → EReal) (ix2 (n0 := 3) (n1 := 512) p k)
      = m ((c : Thread nD τ).loc main_arg0) (ix2 (n0 := 512) (n1 := 3) k p) := by
  obtain ⟨e0, e1, -⟩ := idx_facts t
  have he : ((cfg0.win 0).blk t).view.emb (ix2 (n0 := 3) (n1 := 512) p k) = (ix2 (n0 := 3) (n1 := 512) p k) := by
    funext a; apply Fin.ext
    match a with
    | ⟨0, _⟩ => show win0_0.index t (0 : Fin 2) * 3 + 1 * p.val = p.val; rw [e0]; omega
    | ⟨1, _⟩ => show win0_0.index t (1 : Fin 2) * 512 + 1 * k.val = k.val; rw [e1]; omega
  show (V m c main_v2 : S3x512.Idx → EReal) (((cfg0.win 0).blk t).view.emb (ix2 (n0 := 3) (n1 := 512) p k)) = _
  rw [he, V_zt]
  exact transpose_apply [1, 0] _ _ (ix2 (n0 := 3) (n1 := 512) p k) (ix2 (n0 := 512) (n1 := 3) k p)
    (fun b => by match b with | ⟨0, _⟩ => rfl | ⟨1, _⟩ => rfl)

/-- The centres' block at a point whose output block is `(b, i, 0, 0)`: entry `(0, r, p)` is coordinate `p` of
    centre `64 i + r` of batch `b`. -/
theorem mu_read (c : Dev nD) (t : Fin cfg0.N) (r : Fin 64) (p : Fin 3) (b : Fin 8) (n : Fin 512)
    (hb : b.val = win0_3.index t (0 : Fin 4)) (hn : n.val = win0_3.index t (1 : Fin 4) * 64 + r.val) :
    (iblk m c 1 t : S1x64x3.Idx → EReal) (ix3 (n0 := 1) (n1 := 64) (n2 := 3) 0 r p)
      = m ((c : Thread nD τ).loc main_arg1) (ix3 (n0 := 8) (n1 := 512) (n2 := 3) b n p) := by
  obtain ⟨-, -, -, -, e4, e5, e6, -⟩ := idx_facts t
  show (V m c main_arg1 : S8x512x3.Idx → EReal) (((cfg0.win 1).blk t).view.emb (ix3 (n0 := 1) (n1 := 64) (n2 := 3) 0 r p)) = _
  rw [V_main_arg1 m c]
  congr 1; funext a; apply Fin.ext
  match a with
  | ⟨0, _⟩ => show win0_1.index t (0 : Fin 3) * 1 + 1 * 0 = b.val; rw [e4, hb]; omega
  | ⟨1, _⟩ => show win0_1.index t (1 : Fin 3) * 64 + 1 * r.val = n.val; rw [e5, hn]; omega
  | ⟨2, _⟩ => show win0_1.index t (2 : Fin 3) * 3 + 1 * p.val = p.val; rw [e6]; omega

/-- The frequencies' block is the whole clipped row: entry `(0, f)` is the clip of frequency `f`. -/
theorem cf_read (c : Dev nD) (t : Fin cfg0.N) (f : Fin 8) :
    (iblk m c 2 t : S1x8.Idx → EReal) (ix2 (n0 := 1) (n1 := 8) 0 f)
      = clip (m ((c : Thread nD τ).loc main_arg3)) (ix1 (n := 8) f) := by
  obtain ⟨-, -, e2, e3, -⟩ := idx_facts t
  have he : ((cfg0.win 2).blk t).view.emb (ix2 (n0 := 1) (n1 := 8) 0 f) = (ix2 (n0 := 1) (n1 := 8) 0 f) := by
    funext a; apply Fin.ext
    match a with
    | ⟨0, _⟩ => show win0_2.index t (0 : Fin 2) * 1 + 1 * 0 = 0; rw [e2]
    | ⟨1, _⟩ => show win0_2.index t (1 : Fin 2) * 8 + 1 * f.val = f.val; rw [e3]; omega
  show (V m c main_v1 : S1x8.Idx → EReal) (((cfg0.win 2).blk t).view.emb (ix2 (n0 := 1) (n1 := 8) 0 f)) = _
  rw [he, V_cf_apply]

/-! ## What a point writes back, and the whole array -/

/-- The block's function of point `t`'s input blocks at entry `y` is the feature function of the argument arrays at
    `(b, n, y 2, y 3)`, where `(b, i, 0, 0)` is the point's output block and `n = 64 i + y 1`. -/
theorem block_entry (c : Dev nD) (t : Fin cfg0.N) (y : S1x64x512x16.Idx) (b : Fin 8) (n : Fin 512)
    (hb : b.val = win0_3.index t (0 : Fin 4)) (hn : n.val = win0_3.index t (1 : Fin 4) * 64 + (y 1).val) :
    blockFeat (iblk m c 0 t) (iblk m c 1 t) (iblk m c 2 t) y
      = feat (m ((c : Thread nD τ).loc main_arg0)) (m ((c : Thread nD τ).loc main_arg1)) (m ((c : Thread nD τ).loc main_arg3))
          (ix4 (n0 := 8) (n1 := 512) (n2 := 512) (n3 := 16) b n (y 2) (y 3)) := by
  have ec : (fun f : Fin 8 => (iblk m c 2 t : S1x8.Idx → EReal) (ix2 (n0 := 1) (n1 := 8) 0 f))
      = fun f => clip (m ((c : Thread nD τ).loc main_arg3)) (ix1 (n := 8) f) := funext (cf_read m c t)
  unfold blockFeat feat
  rw [ec, zt_read m c t 0 (y 2), zt_read m c t 1 (y 2), zt_read m c t 2 (y 2),
    mu_read m c t (y 1) 0 b n hb hn, mu_read m c t (y 1) 1 b n hb hn, mu_read m c t (y 1) 2 b n hb hn]

/-- WHAT POINT `t` WRITES BACK is block `t` of the feature function of the argument arrays. -/
theorem flushed_eq (c : Dev nD) (t : Fin cfg0.N) :
    (dats m 0 c).flushed 3 t = ((cfg0.win 3).blk t).view.read (Elt Ideal)
      (feat (m ((c : Thread nD τ).loc main_arg0)) (m ((c : Thread nD τ).loc main_arg1)) (m ((c : Thread nD τ).loc main_arg3))) := by
  rw [Value.flushed3, out_eq]
  obtain ⟨-, -, -, -, -, -, -, e7, e8, l0, l1⟩ := idx_facts t
  funext y
  have hy0 : (y 0).val < 1 := (y 0).isLt
  have hy1 : (y 1).val < 64 := (y 1).isLt
  have hy2 : (y 2).val < 512 := (y 2).isLt
  have hy3 : (y 3).val < 16 := (y 3).isLt
  -- the array index the block entry lands on
  have hi : ((cfg0.win 3).blk t).view.emb y
      = ix4 (n0 := 8) (n1 := 512) (n2 := 512) (n3 := 16) ⟨win0_3.index t (0 : Fin 4), l0⟩
          ⟨win0_3.index t (1 : Fin 4) * 64 + (y 1).val, by omega⟩ (y 2) (y 3) := by
    funext a; apply Fin.ext
    match a with
    | ⟨0, _⟩ => show win0_3.index t (0 : Fin 4) * 1 + 1 * (y 0).val = win0_3.index t (0 : Fin 4); omega
    | ⟨1, _⟩ => show win0_3.index t (1 : Fin 4) * 64 + 1 * (y 1).val = win0_3.index t (1 : Fin 4) * 64 + (y 1).val; omega
    | ⟨2, _⟩ => show win0_3.index t (2 : Fin 4) * 512 + 1 * (y 2).val = (y 2).val; rw [e7]; omega
    | ⟨3, _⟩ => show win0_3.index t (3 : Fin 4) * 16 + 1 * (y 3).val = (y 3).val; rw [e8]; omega
  show blockFeat (iblk m c 0 t) (iblk m c 1 t) (iblk m c 2 t) y
    = feat (m ((c : Thread nD τ).loc main_arg0)) (m ((c : Thread nD τ).loc main_arg1)) (m ((c : Thread nD τ).loc main_arg3))
        (((cfg0.win 3).blk t).view.emb y)
  rw [hi]
  exact block_entry m c t y _ _ rfl rfl

/-- An index of the array is in point `t`'s block iff each coordinate is in the block's range on its axis. -/
theorem mem_blk (t : Fin cfg0.N) (i : S8x512x512x16.Idx) :
    i ∈ ((cfg0.win 3).blk t).view.set ↔ ∀ a : Fin 4, win0_3.index t a * S1x64x512x16.size a ≤ (i a).val
      ∧ (i a).val < win0_3.index t a * S1x64x512x16.size a + S1x64x512x16.size a := by
  show i ∈ ((View.whole main_v3).slice (win0_3.rect t)).set ↔ _
  rw [View.set_slice_whole, Rect.mem_set_unit]
  exact Iff.rfl

/-- The 64 blocks tile the array: entry `(b, n, k, j)` is in the block of the point with batch `b` and row tile `n / 64`. -/
theorem cover (i : S8x512x512x16.Idx) :
    ∃ t : Fin cfg0.N, (cfg0.win 3).flush t = true ∧ i ∈ ((cfg0.win 3).blk t).view.set := by
  have h0 : (i 0).val < 8 := (i 0).isLt
  have h1 : (i 1).val < 512 := (i 1).isLt
  have h2 : (i 2).val < 512 := (i 2).isLt
  have h3 : (i 3).val < 16 := (i 3).isLt
  obtain ⟨t, ht⟩ := idx_onto ⟨(i 0).val, h0⟩ ⟨(i 1).val / 64, by omega⟩
  have q0 : win0_3.index t (0 : Fin 4) = (i 0).val := congrFun ht 0
  have q1 : win0_3.index t (1 : Fin 4) = (i 1).val / 64 := congrFun ht 1
  have q2 : win0_3.index t (2 : Fin 4) = 0 := congrFun ht 2
  have q3 : win0_3.index t (3 : Fin 4) = 0 := congrFun ht 3
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 64 ≤ (i 1).val ∧ (i 1).val < win0_3.index t (1 : Fin 4) * 64 + 64; omega
  | ⟨2, _⟩ => show win0_3.index t (2 : Fin 4) * 512 ≤ (i 2).val ∧ (i 2).val < win0_3.index t (2 : Fin 4) * 512 + 512; omega
  | ⟨3, _⟩ => show win0_3.index t (3 : Fin 4) * 16 ≤ (i 3).val ∧ (i 3).val < win0_3.index t (3 : Fin 4) * 16 + 16; omega

/-- THE ARRAY after the run is the feature function of the argument arrays. -/
theorem final (c : Dev nD) :
    (dats m 0 c).arrAt 3 cfg0.N
      = feat (m ((c : Thread nD τ).loc main_arg0)) (m ((c : Thread nD τ).loc main_arg1)) (m ((c : Thread nD τ).loc main_arg3)) :=
  (dats m 0 c).arrAt_eq_of_cover 3 _ (fun t _ => flushed_eq m c t) cover

/-- The kernel's run, read: the result array at the feature function of the arguments, the arguments unchanged. -/
theorem run : θ_run defs (onTc (τ := τ) (main (F := Ideal))) ⟨m, fun _ => 0, ρ⟩ fun r => ∀ c : Dev nD,
      r.2.mem ((c : Thread nD τ).loc main_v3)
        = feat (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Hand

end
-- ==== Proof.RefFeat.lean ====
/-
  The reference's result is the feature function of the arguments.

  Read one operation at a time, the reference broadcasts `z` and `mu` to `[8,512,512,3]`, subtracts (`z - mu`),
  squares, sums the last axis from zero, takes the root, multiplies by the clipped frequencies broadcast along the last
  axis, and lays the cosines and the sines side by side. Entry `(b,n,k,j)` is therefore column `j`'s wave of the
  sum `0 + Σ_p (z[k,p] - mu[b,n,p])²`; the three-term sum is the kernel's left-nested sum once each square is turned
  round (`sqd_comm`).
-/
import proofs.«116936_j46566035423348_1_alg».proof.Proof.Gen.ReferenceIdeal.Read
import proofs.«116936_j46566035423348_1_alg».proof.Proof.Spec
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx Cert.Fourier

/-- The called clip is `min 10 (max 0.1 ·)` entry by entry. -/
theorem clip_eq (x3 : (⟨S8, .f32⟩ : BufTy).Contents (Elt Ideal)) : val_main_v1 (F := Ideal) x3 = clip x3 := by
  funext i
  rw [val_main_v1_apply, val_main_call0_v4_apply, val_main_call0_v3_apply, val_main_cst_0_apply,
    val_main_call0_v2_apply, val_main_call0_v1_apply, val_main_call0_v0_apply, val_main_cst_apply]
  rfl

/-- Where the broadcast chain of `z` reads the argument: point `k`, coordinate `p`. -/
theorem zidx (j : S8x512x512.Idx) (p : Fin 3) :
    idx_main_v0 (idx_main_v2 (idx_main_v4 (idx_main_v8 j p))) = ix2 (j 2 : Fin 512) p :=
  funext fun a => Fin.ext (by match a with | ⟨0, _⟩ => rfl | ⟨1, _⟩ => rfl)

/-- Where the broadcast chain of `mu` reads the argument: batch `b`, centre `n`, coordinate `p`. -/
theorem muidx (j : S8x512x512.Idx) (p : Fin 3) :
    idx_main_v3 (idx_main_v5 (idx_main_v8 j p)) = ix3 (j 0 : Fin 8) (j 1 : Fin 512) p :=
  funext fun a => Fin.ext (by match a with | ⟨0, _⟩ => rfl | ⟨1, _⟩ => rfl | ⟨2, _⟩ => rfl)

/-- The summed squares at `(b,n,k)` are the squared distance in the kernel's order. -/
theorem dist_eq (x0 : (⟨S512x3, .f32⟩ : BufTy).Contents (Elt Ideal)) (x1 : (⟨S8x512x3, .f32⟩ : BufTy).Contents (Elt Ideal))
    (j : S8x512x512.Idx) :
    val_main_v8 (F := Ideal) x0 x1 j
      = dsum (x1 (ix3 (j 0 : Fin 8) (j 1 : Fin 512) 0)) (x0 (ix2 (j 2 : Fin 512) 0))
          (x1 (ix3 (j 0 : Fin 8) (j 1 : Fin 512) 1)) (x0 (ix2 (j 2 : Fin 512) 1))
          (x1 (ix3 (j 0 : Fin 8) (j 1 : Fin 512) 2)) (x0 (ix2 (j 2 : Fin 512) 2)) := by
  rw [val_main_v8_apply, Fin.sum_univ_three]
  simp only [val_main_v7_apply, val_main_v6_apply, val_main_v4_apply, val_main_v2_apply, val_main_v0_apply,
    val_main_v5_apply, val_main_v3_apply, zidx, muidx]
  show Ideal.ofBits .f32 0x00000000#32
      + (sqd (x0 (ix2 (j 2 : Fin 512) 0)) (x1 (ix3 (j 0 : Fin 8) (j 1 : Fin 512) 0))
        + sqd (x0 (ix2 (j 2 : Fin 512) 1)) (x1 (ix3 (j 0 : Fin 8) (j 1 : Fin 512) 1))
        + sqd (x0 (ix2 (j 2 : Fin 512) 2)) (x1 (ix3 (j 0 : Fin 8) (j 1 : Fin 512) 2))) = _
  unfold dsum
  rw [sqd_comm (x0 (ix2 (j 2 : Fin 512) 0)), sqd_comm (x0 (ix2 (j 2 : Fin 512) 1)), sqd_comm (x0 (ix2 (j 2 : Fin 512) 2))]
  simp only [add_assoc]

/-- Where the phase's two broadcast chains read: the distance at `(b,n,k)`, the clipped frequency at `f`. -/
theorem didx (i : S8x512x512x8.Idx) : idx_main_v10 (idx_main_v12 i) = ix3 (n0 := 8) (n1 := 512) (n2 := 512) (i 0) (i 1) (i 2) :=
  funext fun a => Fin.ext (by match a with | ⟨0, _⟩ => rfl | ⟨1, _⟩ => rfl | ⟨2, _⟩ => rfl)

theorem fidx (i : S8x512x512x8.Idx) : idx_main_v11 (idx_main_v13 i) = ix1 (n := 8) (i 3) :=
  funext fun a => Fin.ext (by match a with | ⟨0, _⟩ => rfl)

/-- The phase at `(b,n,k,f)`: the root of the squared distance times the clipped frequency. -/
theorem phase_eq (x0 : (⟨S512x3, .f32⟩ : BufTy).Contents (Elt Ideal)) (x1 : (⟨S8x512x3, .f32⟩ : BufTy).Contents (Elt Ideal))
    (x3 : (⟨S8, .f32⟩ : BufTy).Contents (Elt Ideal)) (i : S8x512x512x8.Idx) :
    val_main_v14 (F := Ideal) x0 x1 x3 i
      = Ideal.sqrt (dsum (x1 (ix3 (i 0 : Fin 8) (i 1 : Fin 512) 0)) (x0 (ix2 (i 2 : Fin 512) 0))
          (x1 (ix3 (i 0 : Fin 8) (i 1 : Fin 512) 1)) (x0 (ix2 (i 2 : Fin 512) 1))
          (x1 (ix3 (i 0 : Fin 8) (i 1 : Fin 512) 2)) (x0 (ix2 (i 2 : Fin 512) 2)))
        * clip x3 (ix1 (i 3 : Fin 8)) := by
  rw [val_main_v14_apply, val_main_v12_apply, val_main_v10_apply, val_main_v9_apply, val_main_v13_apply,
    val_main_v11_apply, didx, fidx, clip_eq, dist_eq x0 x1 (ix3 (n0 := 8) (n1 := 512) (n2 := 512) (i 0) (i 1) (i 2))]
  rfl

/-- THE REFERENCE'S RESULT is the feature function: the first eight columns are the cosines, the last eight the sines. -/
theorem result_eq (x0 : (⟨S512x3, .f32⟩ : BufTy).Contents (Elt Ideal)) (x1 : (⟨S8x512x3, .f32⟩ : BufTy).Contents (Elt Ideal))
    (x3 : (⟨S8, .f32⟩ : BufTy).Contents (Elt Ideal)) :
    val_main_v17 (F := Ideal) x0 x1 x3 = feat x0 x1 x3 := by
  funext i
  unfold val_main_v17
  have hi3 : (i 3).val < 16 := (i 3).isLt
  by_cases h : (i 3).val < 8
  · refine (concatenate_pair_apply_left (t := S8x512x512x16) (s₁ := S8x512x512x8) (s₂ := S8x512x512x8) (3 : Fin 4) _ _ _ i rfl
      (ix4 (n0 := 8) (n1 := 512) (n2 := 512) (n3 := 8) (i 0) (i 1) (i 2) ⟨(i 3).val, h⟩)
      (fun b => by match b with | ⟨0, _⟩ => rfl | ⟨1, _⟩ => rfl | ⟨2, _⟩ => rfl | ⟨3, _⟩ => rfl)).trans ?_
    rw [val_main_v15_apply, phase_eq]
    unfold feat wave
    rw [dif_pos h]
    rfl
  · refine (concatenate_pair_apply_right (t := S8x512x512x16) (s₁ := S8x512x512x8) (s₂ := S8x512x512x8) (3 : Fin 4) _ _ _ i rfl rfl
      (ix4 (n0 := 8) (n1 := 512) (n2 := 512) (n3 := 8) (i 0) (i 1) (i 2) ⟨(i 3).val - 8, by omega⟩)
      (fun b hb => by match b with | ⟨0, _⟩ => rfl | ⟨1, _⟩ => rfl | ⟨2, _⟩ => rfl | ⟨3, _⟩ => exact absurd rfl hb)
      (by show (i 3).val - 8 + 8 = (i 3).val; omega)).trans ?_
    rw [val_main_v16_apply, phase_eq]
    unfold feat wave
    rw [dif_neg h]
    rfl

end Cert.ReferenceIdeal.RefValue

end
-- ==== Proof.lean ====
/-
  Multi-frequency Fourier features: the tiled kernel against the plain reference, on the extended reals.

  Both programs compute, for batch `b`, centre `n`, point `k` and column `j` of sixteen,
  `cos (‖mu[b,n,:] - z[k,:]‖ · c j)` for `j < 8` and `sin (‖mu[b,n,:] - z[k,:]‖ · c (j - 8))` for `j ≥ 8`, with
  `c f = min 10 (max 0.1 (freq f))` (the same called clip in both) and the squared distance a sum from zero of the
  three squared coordinate differences. The kernel subtracts `mu - z`, the reference `z - mu`; the square does not
  see the order (at the infinities either), and both add the three squares from the zero word up to the grouping
  of the sum. The kernel's grid point `(b, i)` writes rows `64 i … 64 i + 63` of batch `b`, column by column; the
  64 blocks tile the result. The root, cosine and sine are one function on both sides. No finiteness of the inputs
  is used.

  The idealized kernel is the kernel's own text read on the extended reals, so `preserves` is `True`. The two
  kernels' frames are the generated ones; the reference, a host program, has its run as its frame.
-/
import proofs.«116936_j46566035423348_1_alg».proof.Defs
import proofs.«116936_j46566035423348_1_alg».proof.Proof.Gen.Kernel
import proofs.«116936_j46566035423348_1_alg».proof.Proof.Gen.Kernel.Skeleton
import proofs.«116936_j46566035423348_1_alg».proof.Proof.Gen.Kernel.Launch
import proofs.«116936_j46566035423348_1_alg».proof.Proof.Gen.Kernel.Points
import proofs.«116936_j46566035423348_1_alg».proof.Proof.Gen.Kernel.Frame
import proofs.«116936_j46566035423348_1_alg».proof.Proof.Gen.KernelIdeal
import proofs.«116936_j46566035423348_1_alg».proof.Proof.Gen.KernelIdeal.Skeleton
import proofs.«116936_j46566035423348_1_alg».proof.Proof.Gen.KernelIdeal.Launch
import proofs.«116936_j46566035423348_1_alg».proof.Proof.Gen.KernelIdeal.Points
import proofs.«116936_j46566035423348_1_alg».proof.Proof.Gen.KernelIdeal.Frame
import proofs.«116936_j46566035423348_1_alg».proof.Proof.Gen.ReferenceIdeal
import proofs.«116936_j46566035423348_1_alg».proof.Proof.Gen.Pre_finite_inputs
import proofs.«116936_j46566035423348_1_alg».proof.Proof.Gen.KernelIdeal.Value
import proofs.«116936_j46566035423348_1_alg».proof.Proof.Gen.ReferenceIdeal.Run
import proofs.«116936_j46566035423348_1_alg».proof.Proof.Gen.ReferenceIdeal.Read
import proofs.«116936_j46566035423348_1_alg».proof.Proof.KernelValue
import proofs.«116936_j46566035423348_1_alg».proof.Proof.RefFeat
import Idealize.ShloMosaic.Adequacy
import Idealize.ShloMosaic.Init

noncomputable section

namespace Cert.Proof

open Idealize.ShloMosaic Idealize.SL.Sem Cert.Fourier

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the feature function of the (agreeing) argument arrays. -/
theorem algebraic : Cert.algebraic_KernelIdeal_ReferenceIdeal := by
  intro m ρ m' ρ' _ hagree
  refine ⟨fun c => feat (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.result_eq,
    (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
